-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8 : Shape := ⟨1, ![8]⟩
abbrev S65536x2048 : Shape := ⟨2, ![65536, 2048]⟩
abbrev S65536x1 : Shape := ⟨2, ![65536, 1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S65536x1 : S_.BroadcastsInDim S65536x1 (![] : Fin 0 → Fin S65536x1.rank)
  reducesTo_S65536x1_S_d0_1 : S65536x1.ReducesTo [0, 1] S_

variable [Facts]

def fn {F : FTy → Type} [FloatOps F] (main_arg0 : FVec F S8192x2048 .f32) (main_arg1 : IVec S8 32) (main_arg2 : FVec F S65536x2048 .f32) (main_arg3 : FVec F S65536x1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S65536x2048 .f32 := Host.absf main_arg2
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S65536x1 .f32 := Host.absf main_arg3
  let main_cst_2 : FVec F S_ .f32 := constant S_ .f32 0x7F800000#32
  let main_v10 : FVec F S65536x1 .f32 := broadcastInDim S65536x1 ![] bcast_S_S65536x1 main_cst_2
  let main_v11 : IVec S65536x1 1 := cmpf .olt main_v9 main_v10
  let main_c_3 : IVec S_ 1 := constantI S_ 1 1#1
  let main_v12 : IVec S_ 1 := (fun x v => Host.reduce IntOp.andi x v reducesTo_S65536x1_S_d0_1 h_S_) main_v11 main_c_3
  let main_v13 : IVec S_ 1 := andi main_v8 main_v12
  main_v13
-- ==== Kernel.lean ====
abbrev S8192x2048 : Shape := ⟨2, ![8192, 2048]⟩
abbrev S8 : Shape := ⟨1, ![8]⟩
abbrev S65536x2048 : Shape := ⟨2, ![65536, 2048]⟩
abbrev S65536x1 : Shape := ⟨2, ![65536, 1]⟩
abbrev S8192x8192 : Shape := ⟨2, ![8192, 8192]⟩
abbrev S256x2048 : Shape := ⟨2, ![256, 2048]⟩
abbrev S1024x2048 : Shape := ⟨2, ![1024, 2048]⟩
abbrev S1024x1 : Shape := ⟨2, ![1024, 1]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S65536x2048, .f32⟩
  | .hbm, ⟨3, _⟩ => ⟨S65536x1, .f32⟩
  | .hbm, ⟨4, _⟩ => ⟨S8192x8192, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S1024x2048, .f32⟩
  | .local _ .vmem, ⟨4, _⟩ => ⟨S1024x1, .f32⟩
  | .local _ .vmem, ⟨5, _⟩ => ⟨S1024x1, .f32⟩
  | .local _ .vmem, ⟨6, _⟩ => ⟨S256x1024, .f32⟩
  | .local _ .vmem, ⟨7, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : BitVec 32 := Scalar.addi v17 arg1
  let c0_i32_4 : BitVec 32 := 0#32
  let c0_i32_5 : BitVec 32 := 0#32
  ![v18.toNat, c0_i32_4.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : BitVec 32 := Scalar.addi v17 arg1
  let c0_i32_4 : BitVec 32 := 0#32
  let c0_i32_5 : BitVec 32 := 0#32
  ![v18.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  broadcasts_S1024x1_S1024x2048 : S1024x1.Broadcasts S1024x2048
  inb_S256x1024_S256x1024_0_0 : ∀ a, (![0, 0] : Fin 2 → Nat) a + S256x1024.size a ≤ S256x1024.size a
  h_S256x1024 : 0 < S256x1024.numel
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S65536x2048.size a
  hwx0_1 : ∀ i : grid0.Coords, EltTy.bits .f32 = 32 ∨ (Rect.block (s := S65536x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x8192.size a
  hwx0_3 : ∀ i : grid0.Coords, EltTy.bits .f32 = 32 ∨ (Rect.block (s := S8192x8192) S256x1024.size (cc0_transform_3 i) (hinb0_3 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8 : Shape := ⟨1, ![8]⟩
abbrev S65536x2048 : Shape := ⟨2, ![65536, 2048]⟩
abbrev S65536x1 : Shape := ⟨2, ![65536, 1]⟩
abbrev S8x8192x2048 : Shape := ⟨3, ![8, 8192, 2048]⟩
abbrev S8x1024x2048 : Shape := ⟨3, ![8, 1024, 2048]⟩
abbrev S8x1024x8192 : Shape := ⟨3, ![8, 1024, 8192]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S65536x2048, .f32⟩
  | .hbm, ⟨3, _⟩ => ⟨S65536x1, .f32⟩
  | .hbm, ⟨4, _⟩ => ⟨S65536x2048, .f32⟩
  | .hbm, ⟨5, _⟩ => ⟨S65536x2048, .f32⟩
  | .hbm, ⟨6, _⟩ => ⟨S8x8192x2048, .f32⟩
  | .hbm, ⟨7, _⟩ => ⟨S8x1024x2048, .f32⟩
  | .hbm, ⟨8, _⟩ => ⟨S8x1024x8192, .f32⟩
  | .hbm, ⟨9, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S65536x1_S65536x2048_0_1 : S65536x1.BroadcastsInDim S65536x2048 (![0, 1] : Fin 2 → Fin S65536x2048.rank)
  shapeCasts_S65536x2048_S8x8192x2048 : S65536x2048.ShapeCasts S8x8192x2048
  shapeCasts_S8192x2048_S8x1024x2048 : S8192x2048.ShapeCasts S8x1024x2048
  shapeCasts_S8x1024x8192_S8192x8192 : S8x1024x8192.ShapeCasts S8192x8192
  dot_S8x1024x2048_S8x8192x2048_S8x1024x8192_2_2_1_1_0_0_wf : DotDims.WF S8x1024x2048 S8x8192x2048 S8x1024x8192 [2] [2] [1] [1] [0] [0]

variable [Facts₀]

def dot_S8x1024x2048_S8x8192x2048_S8x1024x8192_2_2_1_1_0_0 : DotDims S8x1024x2048 S8x8192x2048 S8x1024x8192 where
  lhsContracting := [2]
  rhsContracting := [2]
  lhsNonContracting := [1]
  rhsNonContracting := [1]
  lhsBatch := [0]
  rhsBatch := [0]
  wf := dot_S8x1024x2048_S8x8192x2048_S8x1024x8192_2_2_1_1_0_0_wf

class Facts : Prop extends Facts₀ where

variable [Facts]
-- ==== Proof.GroupedProduct.lean ====
/-
  The grouped product as ONE function of the argument arrays.

  Tokens are split evenly among 8 experts, 1024 consecutive rows each; expert `e` owns the 8192 consecutive
  weight rows `e * 8192 .. e * 8192 + 8191`, each scaled by its own factor. Output entry `(r, o)` is the inner
  product, over the 2048 input features, of token row `r` with the scaled weight row `(r / 1024) * 8192 + o`:

    out[r, o] = ∑ k, x[r, k] * (w[(r / 1024) * 8192 + o, k] * s[(r / 1024) * 8192 + o, 0]).

  Both programs compute exactly this sum of exactly these products, so no law of the extended reals beyond
  re-indexing a finite sum is needed, and finiteness of the inputs is never used.
-/
import Idealize.ShloMosaic.PureOps.Ideal
import Idealize.ShloMosaic.Lib.ValueIdx

noncomputable section

open scoped BigOperators

namespace Cert.GroupedProduct

open Idealize.ShloMosaic Idealize.ShloMosaic.ValueIdx

/-- The weight row used for token row `r` and output column `o`: row `o` of the slab of expert `r / 1024`. -/
def wrow (r o : Fin 8192) : Fin 65536 := ⟨r.val / 1024 * 8192 + o.val, by have := r.isLt; have := o.isLt; omega⟩

theorem wrow_val (r o : Fin 8192) : (wrow r o).val = r.val / 1024 * 8192 + o.val := rfl

/-- The result array, entry by entry. -/
def G (x : (⟨2, ![8192, 2048]⟩ : Shape).Idx → EReal) (w : (⟨2, ![65536, 2048]⟩ : Shape).Idx → EReal)
    (s : (⟨2, ![65536, 1]⟩ : Shape).Idx → EReal) : (⟨2, ![8192, 8192]⟩ : Shape).Idx → EReal :=
  fun i => ∑ k : Fin 2048, x (ix2 (i 0) k) * (w (ix2 (wrow (i 0) (i 1)) k) * s (ix2 (wrow (i 0) (i 1)) (0 : Fin 1)))

theorem G_apply (x : (⟨2, ![8192, 2048]⟩ : Shape).Idx → EReal) (w : (⟨2, ![65536, 2048]⟩ : Shape).Idx → EReal)
    (s : (⟨2, ![65536, 1]⟩ : Shape).Idx → EReal) (r o : Fin 8192) :
    G x w s (ix2 r o) = ∑ k : Fin 2048, x (ix2 r k) * (w (ix2 (wrow r o) k) * s (ix2 (wrow r o) (0 : Fin 1))) := rfl

end Cert.GroupedProduct

end
-- ==== Proof.ReferenceValue.lean ====
/-
  The reference computes the grouped product.

  The reference scales every weight row, views the scaled weights as 8 slabs of 8192 rows and the tokens as 8 groups
  of 1024 rows, takes, slab by slab, the inner products of the group's rows with the slab's rows over the 2048
  features, and lays the 8 × 1024 × 8192 results out as 8192 × 8192. Read at output entry `(r, o)`: the flat position
  `r * 8192 + o` lies in slab `r / 1024`, at row `r % 1024` of the group and column `o`; the token row read is
  `(r / 1024) * 1024 + r % 1024 = r`, the weight row read is `(r / 1024) * 8192 + o`, and its scale sits in
  column 0 of that row. So the entry is the specification's sum, term by term.
-/
import proofs.«120595_j79156247265584_1_alg».proof.Proof.Gen.ReferenceIdeal.Read
import proofs.«120595_j79156247265584_1_alg».proof.Proof.GroupedProduct

noncomputable section

open scoped BigOperators

namespace Cert.ReferenceIdeal.RefValue

open Cert.ReferenceIdeal Cert.ReferenceIdeal.Gen Cert.ReferenceIdeal.Read
open Idealize.ShloMosaic Idealize.ShloMosaic.ValueIdx Cert.GroupedProduct

/-- The token entry the batched product reads for output entry `(r, o)` and feature `k` is `(r, k)`. -/
theorem token_index (r o : Fin 8192) (k : Fin 2048) :
    idx_main_v3 (lidx_main_v4 (idx_main_v5 (ix2 r o)) k) = ix2 r k := by
  have hr := r.isLt; have ho := o.isLt; have hk := k.isLt
  funext a; apply Fin.ext
  match a with
  | ⟨0, _⟩ =>
    show (((r.val * 8192 + o.val) / 8388608 * 1024 + (r.val * 8192 + o.val) / 8192 % 1024) * 2048 + k.val) / 2048 = r.val
    omega
  | ⟨1, _⟩ =>
    show (((r.val * 8192 + o.val) / 8388608 * 1024 + (r.val * 8192 + o.val) / 8192 % 1024) * 2048 + k.val) % 2048 = k.val
    omega

/-- The scaled-weight entry it reads is `(wrow r o, k)`: row `o` of the slab of expert `r / 1024`. -/
theorem weight_index (r o : Fin 8192) (k : Fin 2048) :
    idx_main_v2 (ridx_main_v4 (idx_main_v5 (ix2 r o)) k) = ix2 (wrow r o) k := by
  have hr := r.isLt; have ho := o.isLt; have hk := k.isLt
  funext a; apply Fin.ext
  match a with
  | ⟨0, _⟩ =>
    show (((r.val * 8192 + o.val) / 8388608 * 8192 + (r.val * 8192 + o.val) % 8192) * 2048 + k.val) / 2048
      = r.val / 1024 * 8192 + o.val
    omega
  | ⟨1, _⟩ =>
    show (((r.val * 8192 + o.val) / 8388608 * 8192 + (r.val * 8192 + o.val) % 8192) * 2048 + k.val) % 2048 = k.val
    omega

/-- A weight row's scale, broadcast along the features, is read from column 0 of that row. -/
theorem scale_index (w : Fin 65536) (k : Fin 2048) : idx_main_v0 (ix2 w k) = ix2 w (0 : Fin 1) := by
  funext a; apply Fin.ext
  match a with
  | ⟨0, _⟩ => rfl
  | ⟨1, _⟩ => rfl

/-- The reference's result, as the run states it, is the grouped product of the three float arguments. -/
theorem result_eq (x0 : (⟨S8192x2048, .f32⟩ : BufTy).Contents (Elt Ideal)) (x2 : (⟨S65536x2048, .f32⟩ : BufTy).Contents (Elt Ideal))
    (x3 : (⟨S65536x1, .f32⟩ : BufTy).Contents (Elt Ideal)) :
    val_main_v5 (F := Ideal) x0 x2 x3 = G x0 x2 x3 := by
  funext i
  obtain ⟨r, o, rfl⟩ : ∃ (r : Fin 8192) (o : Fin 8192), i = ix2 r o := ⟨i 0, i 1, eq_ix2 i⟩
  rw [val_main_v5_apply, val_main_v4_apply, G_apply]
  refine Finset.sum_congr rfl fun k _ => ?_
  rw [val_main_v3_apply, token_index, val_main_v2_apply, weight_index, val_main_v1_apply, val_main_v0_apply, scale_index]
  rfl

end Cert.ReferenceIdeal.RefValue

end
-- ==== Proof.KernelTile.lean ====
/-
  One grid step's tile, entry by entry.

  A step loads a 256 × 2048 block `x` of token rows, a 1024 × 2048 block `w` of weight rows and the 1024 × 1 column
  `s` of their scales, multiplies every weight row by its scale, and stores the 256 × 1024 product of `x` with the
  transposed scaled block, accumulated from zero. Over the extended reals the two changes of float format are the
  identity and the accumulator contributes `0`, so entry `(p, q)` of the stored tile is

    ∑ k, x[p, k] * (w[q, k] * s[q, 0]).
-/
import proofs.«120595_j79156247265584_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## Which operand entries the product pairs at an output entry -/

/-- The left operand is read in the output's row … -/
theorem lhs_row (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
/-- … at the contracted feature; -/
theorem lhs_feature (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
/-- the right operand is read in the row numbered by the output's COLUMN (the product is with the transpose) … -/
theorem rhs_row (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
/-- … at the same feature. -/
theorem rhs_feature (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-! ## The scale column spread along the features -/

/-- Every feature of weight row `q` is multiplied by that row's one scale. -/
theorem scale_spread (s : Vec Ideal S1024x1 .f32) (q : Fin 1024) (k : Fin 2048) :
    broadcastTo S1024x2048 s broadcasts_S1024x1_S1024x2048 (ix2 q k) = s (ix2 q (0 : Fin 1)) := by
  refine broadcastTo_apply s broadcasts_S1024x1_S1024x2048 (ix2 q k) (ix2 q (0 : Fin 1)) (fun a => ?_)
  match a with
  | ⟨0, _⟩ => show q.val = if (1024 : Nat) = 1 then 0 else q.val; rw [if_neg (by decide)]
  | ⟨1, _⟩ => show 0 = if (1 : Nat) = 1 then 0 else k.val; rw [if_pos rfl]

/-! ## The stored tile -/

/-- Entry `(p, q)` of the tile a step stores: the inner product of token row `p` of its block with the scaled
    weight row `q` of its block. -/
theorem tile_apply (x : Vec Ideal S256x2048 .f32) (w : Vec Ideal S1024x2048 .f32) (s : Vec Ideal S1024x1 .f32)
    (p : Fin 256) (q : Fin 1024) :
    k0_pay1 (F := Ideal) x w s (ix2 p q) = ∑ k : Fin 2048, x (ix2 p k) * (w (ix2 q k) * s (ix2 q (0 : Fin 1))) := by
  unfold k0_pay1
  refine (Ideal.matmul_constant_zero_apply dot_S256x2048_S1024x2048_S256x1024_1_1_0_0_n_n none _ _ (ix2 p q)).trans ?_
  rw [← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p q) ((contrEquiv1 dot_S256x2048_S1024x2048_S256x1024_1_1_0_0_n_n 2048 rfl rfl).symm k) = ix2 p k := funext fun a => Fin.ext (by
    match a with
    | ⟨0, _⟩ => exact lhs_row _ _
    | ⟨1, _⟩ => exact (lhs_feature _ _).trans hk)
  have er : dot_S256x2048_S1024x2048_S256x1024_1_1_0_0_n_n.rhsIdx (ix2 p q) ((contrEquiv1 dot_S256x2048_S1024x2048_S256x1024_1_1_0_0_n_n 2048 rfl rfl).symm k) = ix2 q k := funext fun a => Fin.ext (by
    match a with
    | ⟨0, _⟩ => exact rhs_row _ _
    | ⟨1, _⟩ => exact (rhs_feature _ _).trans hk)
  rw [el, er]
  show x (ix2 p k) * (w (ix2 q k) * broadcastTo S1024x2048 s broadcasts_S1024x1_S1024x2048 (ix2 q k)) = _
  rw [scale_spread]

end Cert.KernelIdeal.Tile

end
-- ==== Proof.KernelArray.lean ====
/-
  From the tiles to the whole result array.

  The grid has 32 × 8 steps, numbered row-major: step `t` is row tile `t / 8` and output tile `t % 8`. It reads token
  rows `(t / 8) * 256 ..`, and, the four row tiles `4e .. 4e + 3` being expert `e`'s, weight rows
  `((t / 32) * 8 + t % 8) * 1024 ..` with their scales; it writes the 256 × 1024 tile of the result at rows
  `(t / 8) * 256 ..`, columns `(t % 8) * 1024 ..`. Entry `(p, q)` of that tile is result entry
  `(r, o) = ((t / 8) * 256 + p, (t % 8) * 1024 + q)`; since `p < 256`, `r / 1024 = t / 32`, so the weight row the
  step pairs with it, `((t / 32) * 8 + t % 8) * 1024 + q`, is `(r / 1024) * 8192 + o`: the tile is the restriction
  of the grouped product. The 256 tiles cover the 8192 × 8192 array — entry `(r, o)` lies in the tile of step
  `(r / 256) * 8 + o / 1024` — so after the run the array is the grouped product everywhere.
-/
import proofs.«120595_j79156247265584_1_alg».proof.Proof.Gen.KernelIdeal.Value
import proofs.«120595_j79156247265584_1_alg».proof.Proof.KernelTile
import proofs.«120595_j79156247265584_1_alg».proof.Proof.GroupedProduct

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.GroupedProduct Cert.KernelIdeal.Tile

variable (m : (ℓ : Loc nD τ sig) → Buf (Elt Ideal) ℓ) (ρ : Dev nD → PrngReg)

/-- The body reads and writes its buffers whole: from the origin. -/
theorem origin : (![0, 0] : Fin 2 → Nat) = fun _ => 0 := funext fun a => by fin_cases a <;> rfl

/-- Where each operand's block sits at step `t`, in units of blocks: the result's at `(t / 8, t % 8)`, the tokens' at
    row block `t / 8`, the weights' and the scales' at row block `(t / 32) * 8 + t % 8` (the printed index maps'
    floor division of the row tile by 4 is `t / 32`); decided over the 256 steps. -/
theorem block_positions : ∀ t : Fin cfg0.N,
    win0_3.index t (0 : Fin 2) = t.val / 8 ∧ win0_3.index t (1 : Fin 2) = t.val % 8
    ∧ win0_0.index t (0 : Fin 2) = t.val / 8 ∧ win0_0.index t (1 : Fin 2) = 0
    ∧ win0_1.index t (0 : Fin 2) = t.val / 32 * 8 + t.val % 8 ∧ win0_1.index t (1 : Fin 2) = 0
    ∧ win0_2.index t (0 : Fin 2) = t.val / 32 * 8 + t.val % 8 ∧ win0_2.index t (1 : Fin 2) = 0 :=
  (by decide +kernel : ∀ t : Fin grid0.N, _)

/-- What step `t` writes back is block `t` of the grouped product of the argument arrays. -/
theorem flushed_eq (c : Dev nD) (t : Fin cfg0.N) :
    (dats m 0 c).flushed 3 t
      = ((cfg0.win 3).blk t).view.read (Elt Ideal) (G (V m c main_arg0) (V m c main_arg2) (V m c main_arg3)) := by
  rw [flushed3]
  unfold out0_3
  rw [View.canon_unit_zero origin]
  simp only [View.ld_unit_zero (S := S256x2048) origin, View.ld_unit_zero (S := S1024x2048) origin,
    View.ld_unit_zero (S := S1024x1) origin]
  obtain ⟨e30, e31, e00, e01, e10, e11, e20, e21⟩ := block_positions t
  refine funext fun (j : S256x1024.Idx) => ?_
  obtain ⟨p, q, rfl⟩ : ∃ (p : Fin 256) (q : Fin 1024), j = ix2 p q := ⟨j 0, j 1, eq_ix2 j⟩
  have hp := p.isLt; have hq := q.isLt
  show k0_pay1 (iblk m c 0 t) (iblk m c 1 t) (iblk m c 2 t) (ix2 p q)
    = G (V m c main_arg0) (V m c main_arg2) (V m c main_arg3) (((cfg0.win 3).blk t).view.emb (ix2 p q))
  refine (tile_apply (iblk m c 0 t) (iblk m c 1 t) (iblk m c 2 t) p q).trans ?_
  unfold G
  refine Finset.sum_congr rfl fun k _ => ?_
  have hk := k.isLt
  -- the token entry
  have hx : iblk m c 0 t (ix2 p k)
      = V m c main_arg0 (ix2 ((((cfg0.win 3).blk t).view.emb (ix2 p q)) 0) k) := by
    show V m c main_arg0 (((cfg0.win 0).blk t).view.emb (ix2 p k)) = _
    refine congrArg _ (funext fun a => Fin.ext ?_)
    match a with
    | ⟨0, _⟩ =>
      show win0_0.index t (0 : Fin 2) * 256 + 1 * p.val = win0_3.index t (0 : Fin 2) * 256 + 1 * p.val
      omega
    | ⟨1, _⟩ =>
      show win0_0.index t (1 : Fin 2) * 2048 + 1 * k.val = k.val
      omega
  -- the weight entry
  have hw : iblk m c 1 t (ix2 q k)
      = V m c main_arg2 (ix2 (wrow ((((cfg0.win 3).blk t).view.emb (ix2 p q)) 0) ((((cfg0.win 3).blk t).view.emb (ix2 p q)) 1)) k) := by
    show V m c main_arg2 (((cfg0.win 1).blk t).view.emb (ix2 q k)) = _
    refine congrArg _ (funext fun a => Fin.ext ?_)
    match a with
    | ⟨0, _⟩ =>
      show win0_1.index t (0 : Fin 2) * 1024 + 1 * q.val
        = (win0_3.index t (0 : Fin 2) * 256 + 1 * p.val) / 1024 * 8192 + (win0_3.index t (1 : Fin 2) * 1024 + 1 * q.val)
      omega
    | ⟨1, _⟩ =>
      show win0_1.index t (1 : Fin 2) * 2048 + 1 * k.val = k.val
      omega
  -- its scale
  have hs : iblk m c 2 t (ix2 q (0 : Fin 1))
      = V m c main_arg3 (ix2 (wrow ((((cfg0.win 3).blk t).view.emb (ix2 p q)) 0) ((((cfg0.win 3).blk t).view.emb (ix2 p q)) 1)) (0 : Fin 1)) := by
    show V m c main_arg3 (((cfg0.win 2).blk t).view.emb (ix2 q (0 : Fin 1))) = _
    refine congrArg _ (funext fun a => Fin.ext ?_)
    match a with
    | ⟨0, _⟩ =>
      show win0_2.index t (0 : Fin 2) * 1024 + 1 * q.val
        = (win0_3.index t (0 : Fin 2) * 256 + 1 * p.val) / 1024 * 8192 + (win0_3.index t (1 : Fin 2) * 1024 + 1 * q.val)
      omega
    | ⟨1, _⟩ =>
      show win0_2.index t (1 : Fin 2) * 1 + 1 * 0 = 0
      omega
  rw [hx, hw, hs]

/-- An entry of the array is in step `t`'s tile iff each coordinate is in the tile's range on its axis. -/
theorem mem_tile (t : Fin cfg0.N) (i : S8192x8192.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v0).slice (win0_3.rect t)).set ↔ _
  rw [View.set_slice_whole, Rect.mem_set_unit]
  exact Iff.rfl

/-- Every entry of the result lies in some step's tile: entry `(r, o)` in that of step `(r / 256) * 8 + o / 1024`. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ : ∃ t : Fin cfg0.N, t.val = (i 0).val / 256 * 8 + (i 1).val / 1024 :=
    ⟨⟨(i 0).val / 256 * 8 + (i 1).val / 1024, by have h := N_0; show _ < grid0.N; omega⟩, rfl⟩
  obtain ⟨e30, e31, -⟩ := block_positions t
  refine ⟨t, flush0_3 t, ?_⟩
  rw [mem_tile]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

/-- After the run the result array is the grouped product of the argument arrays. -/
theorem final (c : Dev nD) :
    (dats m 0 c).arrAt 3 cfg0.N = G (V m c main_arg0) (V m c main_arg2) (V m c main_arg3) :=
  (dats m 0 c).arrAt_eq_of_cover 3 (G (V m c main_arg0) (V m c main_arg2) (V m c main_arg3))
    (fun t _ => flushed_eq m c t) covered

/-- The kernel's run, with the result named: every weakly fair execution terminates with the result array at the
    grouped product of the arguments as launched, and the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrayValue

end
-- ==== Proof.lean ====
/-
  A grouped linear layer with row-scaled weights: 8192 tokens in 8 equal groups of 1024 consecutive rows, group `e`
  multiplied by the transpose of the scaled weight slab `e` (8192 rows of 2048 features, each row times its own
  scale). Both programs compute, at result entry `(r, o)`,

    ∑ k, x[r, k] * (w[(r / 1024) * 8192 + o, k] * s[(r / 1024) * 8192 + o, 0]),

  the kernel tile by tile (256 × 1024 tiles, the whole 2048-feature contraction in one step, the operands narrowed
  to bf16 on the way into the product — the identity over the extended reals), the reference as one batched product
  over reshaped arrays. The sums have the same terms in the same grouping, so they are equal over the extended reals
  with no appeal to finiteness: only re-indexing. The integer argument (the group sizes) is read by neither program.

  `Proof/GroupedProduct.lean` states the function; `Proof/ReferenceValue.lean` shows the reference's result is it;
  `Proof/KernelTile.lean` reads one step's stored tile entry by entry and `Proof/KernelArray.lean` assembles the
  tiles into the array. Here: the five claims.
-/
import proofs.«120595_j79156247265584_1_alg».proof.Defs
import proofs.«120595_j79156247265584_1_alg».proof.Proof.Gen.Kernel
import proofs.«120595_j79156247265584_1_alg».proof.Proof.Gen.Kernel.Skeleton
import proofs.«120595_j79156247265584_1_alg».proof.Proof.Gen.Kernel.Launch
import proofs.«120595_j79156247265584_1_alg».proof.Proof.Gen.Kernel.Points
import proofs.«120595_j79156247265584_1_alg».proof.Proof.Gen.Kernel.Frame
import proofs.«120595_j79156247265584_1_alg».proof.Proof.Gen.KernelIdeal
import proofs.«120595_j79156247265584_1_alg».proof.Proof.Gen.KernelIdeal.Skeleton
import proofs.«120595_j79156247265584_1_alg».proof.Proof.Gen.KernelIdeal.Launch
import proofs.«120595_j79156247265584_1_alg».proof.Proof.Gen.KernelIdeal.Points
import proofs.«120595_j79156247265584_1_alg».proof.Proof.Gen.KernelIdeal.Frame
import proofs.«120595_j79156247265584_1_alg».proof.Proof.Gen.ReferenceIdeal
import proofs.«120595_j79156247265584_1_alg».proof.Proof.Gen.Pre_finite_inputs
import proofs.«120595_j79156247265584_1_alg».proof.Proof.Gen.KernelIdeal.Value
import proofs.«120595_j79156247265584_1_alg».proof.Proof.Gen.ReferenceIdeal.Run
import proofs.«120595_j79156247265584_1_alg».proof.Proof.Gen.ReferenceIdeal.Read
import proofs.«120595_j79156247265584_1_alg».proof.Proof.GroupedProduct
import proofs.«120595_j79156247265584_1_alg».proof.Proof.ReferenceValue
import proofs.«120595_j79156247265584_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the arguments both programs end with the grouped product of the three float
    arguments: the kernel's array tile by tile, the reference's by reading its operations at an entry. -/
theorem algebraic : Cert.algebraic_KernelIdeal_ReferenceIdeal := by
  intro m ρ m' ρ' _ hagree
  refine ⟨fun c => Cert.GroupedProduct.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
